-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_arg4 : FVec F S16x4096 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S16x4096 .f32 := Host.absf main_arg4
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S4096 .f32) (main_arg3 : FVec F S4096x16 .f32) (main_arg4 : FVec F S16x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S8192x4096 : Shape := ⟨2, ![8192, 4096]⟩
abbrev S1x4096 : Shape := ⟨2, ![1, 4096]⟩
abbrev S2048x128 : Shape := ⟨2, ![2048, 128]⟩
abbrev S1024x128 : Shape := ⟨2, ![1024, 128]⟩
abbrev S128x16 : Shape := ⟨2, ![128, 16]⟩
abbrev S16x1024 : Shape := ⟨2, ![16, 1024]⟩
abbrev S1x1024 : Shape := ⟨2, ![1, 1024]⟩
abbrev S2048x1024 : Shape := ⟨2, ![2048, 1024]⟩
abbrev S2048x16 : Shape := ⟨2, ![2048, 16]⟩

abbrev nBuf : Space → Nat
  | .hbm => 9
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S4x2048x4096, .f32⟩
  | .local _ .vmem, ⟨0, _⟩ => ⟨S2048x128, .f32⟩
  | .local _ .vmem, ⟨1, _⟩ => ⟨S2048x128, .f32⟩
  | .local _ .vmem, ⟨2, _⟩ => ⟨S1024x128, .f32⟩
  | .local _ .vmem, ⟨3, _⟩ => ⟨S1024x128, .f32⟩
  | .local _ .vmem, ⟨4, _⟩ => ⟨S128x16, .f32⟩
  | .local _ .vmem, ⟨5, _⟩ => ⟨S128x16, .f32⟩
  | .local _ .vmem, ⟨6, _⟩ => ⟨S16x1024, .f32⟩
  | .local _ .vmem, ⟨7, _⟩ => ⟨S16x1024, .f32⟩
  | .local _ .vmem, ⟨8, _⟩ => ⟨S1x1024, .f32⟩
  | .local _ .vmem, ⟨9, _⟩ => ⟨S1x1024, .f32⟩
  | .local _ .vmem, ⟨10, _⟩ => ⟨S2048x1024, .f32⟩
  | .local _ .vmem, ⟨11, _⟩ => ⟨S2048x1024, .f32⟩
  | .local _ .vmem, ⟨12, _⟩ => ⟨S2048x1024, .f32⟩
  | .local _ .vmem, ⟨13, _⟩ => ⟨S2048x16, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 32], ![false, false, false]⟩

def k0_cond2 (i : grid0.Coords) : BitVec 1 :=
  let arg2 : BitVec 32 := BitVec.ofNat 32 (i 2).val
  let c31_i32 : BitVec 32 := 31#32
  let v22 : BitVec 1 := Scalar.cmpi .eq arg2 c31_i32
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x2048x4096_S8192x4096 : S4x2048x4096.ShapeCasts S8192x4096
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  inb_S128x16_S128x16_0_0 : ∀ a, (![0, 0] : Fin 2 → Nat) a + S128x16.size a ≤ S128x16.size a
  h_S128x16 : 0 < S128x16.numel
  inb_S16x1024_S16x1024_0_0 : ∀ a, (![0, 0] : Fin 2 → Nat) a + S16x1024.size a ≤ S16x1024.size a
  h_S16x1024 : 0 < S16x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S8192x4096_S4x2048x4096 : S8192x4096.ShapeCasts S4x2048x4096
  dot_S2048x128_S1024x128_S2048x1024_1_1_0_0_n_n_wf : DotDims.WF S2048x128 S1024x128 S2048x1024 [1] [1] [0] [0] [] []
  dot_S2048x128_S128x16_S2048x16_1_0_0_1_n_n_wf : DotDims.WF S2048x128 S128x16 S2048x16 [1] [0] [0] [1] [] []
  dot_S2048x16_S16x1024_S2048x1024_1_0_0_1_n_n_wf : DotDims.WF S2048x16 S16x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S8192x4096.size a
  hwx0_0 : ∀ i : grid0.Coords, EltTy.bits .f32 = 32 ∨ (Rect.block (s := S8192x4096) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S4096x4096.size a
  hwx0_1 : ∀ i : grid0.Coords, EltTy.bits .f32 = 32 ∨ (Rect.block (s := S4096x4096) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x16.size a ≤ S4096x16.size a
  hwx0_2 : ∀ i : grid0.Coords, EltTy.bits .f32 = 32 ∨ (Rect.block (s := S4096x16) S128x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1024.size a ≤ S16x4096.size a
  hwx0_3 : ∀ i : grid0.Coords, EltTy.bits .f32 = 32 ∨ (Rect.block (s := S16x4096) S16x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1024.size a ≤ S8192x4096.size a
  hwx0_5 : ∀ i : grid0.Coords, EltTy.bits .f32 = 32 ∨ (Rect.block (s := S8192x4096) S2048x1024.size (cc0_transform_5 i) (hinb0_5 i)).WholeWords (EltTy.packing .f32)

variable [Facts₀]

def dot_S2048x128_S1024x128_S2048x1024_1_1_0_0_n_n : DotDims S2048x128 S1024x128 S2048x1024 where
  lhsContracting := [1]
  rhsContracting := [1]
  lhsNonContracting := [0]
  rhsNonContracting := [0]
  lhsBatch := []
  rhsBatch := []
  wf := dot_S2048x128_S1024x128_S2048x1024_1_1_0_0_n_n_wf
def dot_S2048x128_S128x16_S2048x16_1_0_0_1_n_n : DotDims S2048x128 S128x16 S2048x16 where
  lhsContracting := [1]
  rhsContracting := [0]
  lhsNonContracting := [0]
  rhsNonContracting := [1]
  lhsBatch := []
  rhsBatch := []
  wf := dot_S2048x128_S128x16_S2048x16_1_0_0_1_n_n_wf
def dot_S2048x16_S16x1024_S2048x1024_1_0_0_1_n_n : DotDims S2048x16 S16x1024 S2048x1024 where
  lhsContracting := [1]
  rhsContracting := [0]
  lhsNonContracting := [0]
  rhsNonContracting := [1]
  lhsBatch := []
  rhsBatch := []
  wf := dot_S2048x16_S16x1024_S2048x1024_1_0_0_1_n_n_wf

abbrev win0_0 : Pipeline.Window sig grid0 :=
  Pipeline.Window.ofSpec (Memref.whole main_v0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S16x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S2048x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S1x1x4096 : Shape := ⟨3, ![1, 1, 4096]⟩
abbrev S4x2048x16 : Shape := ⟨3, ![4, 2048, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S4x2048x4096, .f32⟩
  | .hbm, ⟨6, _⟩ => ⟨S1x1x4096, .f32⟩
  | .hbm, ⟨7, _⟩ => ⟨S4x2048x4096, .f32⟩
  | .hbm, ⟨8, _⟩ => ⟨S4x2048x4096, .f32⟩
  | .hbm, ⟨9, _⟩ => ⟨S4x2048x16, .f32⟩
  | .hbm, ⟨10, _⟩ => ⟨S4x2048x4096, .f32⟩
  | .hbm, ⟨11, _⟩ => ⟨S_, .f32⟩
  | .hbm, ⟨12, _⟩ => ⟨S4x2048x4096, .f32⟩
  | .hbm, ⟨13, _⟩ => ⟨S4x2048x4096, .f32⟩
  | .hbm, ⟨14, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S4096x16_S4x2048x16_2_0_01_1_n_n_wf : DotDims.WF S4x2048x4096 S4096x16 S4x2048x16 [2] [0] [0, 1] [1] [] []
  dot_S4x2048x16_S16x4096_S4x2048x4096_2_0_01_1_n_n_wf : DotDims.WF S4x2048x16 S16x4096 S4x2048x4096 [2] [0] [0, 1] [1] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S4096x16_S4x2048x16_2_0_01_1_n_n : DotDims S4x2048x4096 S4096x16 S4x2048x16 where
  lhsContracting := [2]
  rhsContracting := [0]
  lhsNonContracting := [0, 1]
  rhsNonContracting := [1]
  lhsBatch := []
  rhsBatch := []
  wf := dot_S4x2048x4096_S4096x16_S4x2048x16_2_0_01_1_n_n_wf
def dot_S4x2048x16_S16x4096_S4x2048x4096_2_0_01_1_n_n : DotDims S4x2048x16 S16x4096 S4x2048x4096 where
  lhsContracting := [2]
  rhsContracting := [0]
  lhsNonContracting := [0, 1]
  rhsNonContracting := [1]
  lhsBatch := []
  rhsBatch := []
  wf := dot_S4x2048x16_S16x4096_S4x2048x4096_2_0_01_1_n_n_wf

class Facts : Prop extends Facts₀ where

variable [Facts]
-- ==== Proof.LibBlockedSum.lean ====
/-
  GENERAL LEMMA (no program imported). A sum over the first `n * k` naturals taken `n` at a time: the `k` consecutive runs of length `n`
  partition `0 … n·k − 1`, so summing each run and then the runs is the one long sum. Only commutativity and
  associativity of the addition are used, so it holds in every additive commutative monoid — in particular on
  the extended reals, where no cancellation is available.
-/
import Mathlib.Algebra.BigOperators.Group.Finset.Basic
import Mathlib.Data.Fintype.BigOperators

namespace Cert.BlockedSum

open Finset

/-- Run `s` holds the naturals `n·s … n·s + n − 1`; the first `k` runs together are `0 … n·k − 1`. -/
theorem sum_range_blocks {β : Type*} [AddCommMonoid β] (n : ℕ) (f : ℕ → β) (k : ℕ) :
    ∑ s ∈ range k, ∑ p ∈ range n, f (n * s + p) = ∑ i ∈ range (n * k), f i := by
  induction k with
  | zero => simp
  | succ k ih => rw [sum_range_succ, ih, Nat.mul_succ, sum_range_add]

end Cert.BlockedSum
-- ==== Proof.LoraSpec.lean ====
/-
  A linear layer with a low-rank correction, as ONE function of its five arrays over the extended reals.

  For an input row r (a row of the [8192, 4096] matrix the [4, 2048, 4096] input is when its two leading axes are
  merged) and an output feature n,

      out (r, n) = ((sum over d of x (r, d) * w (n, d)) + bias n) + 2 * (sum over q of (sum over d of x (r, d) * b (d, q)) * a (q, n)).

  The feature axis d has 4096 entries. A sum over it may be taken 128 entries at a time: the 32 consecutive runs of
  128 partition it, and since only commutativity and associativity of the addition are used this holds on the
  extended reals, where nothing cancels. `run128` is one run's sum, `accBase` / `accDown` the sums of the first
  `cnt` runs of the two products that contract d; after all 32 runs they are the whole products.
-/
import Idealize.ShloMosaic.Lib.ValueIdx
import Idealize.ShloMosaic.Lib.Pipeline.Value
import Idealize.ShloMosaic.Lib.ValueLayout
import Idealize.ShloMosaic.PureOps.Ideal.Laws
import proofs.«159220_j69329362092463_1_alg».proof.Proof.LibBlockedSum

noncomputable section

namespace Cert.Lora

open Idealize.ShloMosaic Idealize.ShloMosaic.ValueIdx Finset

abbrev SX3 : Shape := ⟨3, ![4, 2048, 4096]⟩
abbrev SX2 : Shape := ⟨2, ![8192, 4096]⟩
abbrev SW : Shape := ⟨2, ![4096, 4096]⟩
abbrev Sb1 : Shape := ⟨1, ![4096]⟩
abbrev Sb2 : Shape := ⟨2, ![1, 4096]⟩
abbrev SB : Shape := ⟨2, ![4096, 16]⟩
abbrev SA : Shape := ⟨2, ![16, 4096]⟩

/-- The scale of the low-rank path: the f32 pattern of 2.0, the same word in both programs (never evaluated). -/
abbrev two : EReal := Ideal.ofBits .f32 0x40000000#32

/-! ## Sums over the feature axis, 128 entries at a time -/

/-- The sum of run `s` of a family over the feature axis: entries 128 s … 128 s + 127 (nothing past run 31). -/
def run128 {β : Type*} [AddCommMonoid β] (f : Fin 4096 → β) (s : ℕ) : β :=
  if h : s < 32 then ∑ e : Fin 128, f ⟨128 * s + e.val, by have := e.isLt; omega⟩ else 0

theorem run128_of_lt {β : Type*} [AddCommMonoid β] (f : Fin 4096 → β) (s : ℕ) (h : s < 32) :
    run128 f s = ∑ e : Fin 128, f ⟨128 * s + e.val, by have := e.isLt; omega⟩ := dif_pos h

/-- The 32 runs together are the whole axis. -/
theorem sum_run128 {β : Type*} [AddCommMonoid β] (f : Fin 4096 → β) :
    ∑ s ∈ range 32, run128 f s = ∑ d : Fin 4096, f d := by
  let g : ℕ → β := fun d => if h : d < 4096 then f ⟨d, h⟩ else 0
  have h1 : ∀ s ∈ range 32, run128 f s = ∑ p ∈ range 128, g (128 * s + p) := by
    intro s hs
    have hs' : s < 32 := mem_range.mp hs
    rw [run128_of_lt f s hs', Finset.sum_range (fun p => g (128 * s + p))]
    refine Finset.sum_congr rfl fun e _ => ?_
    have : 128 * s + e.val < 4096 := by have := e.isLt; omega
    show f _ = g _
    simp only [g, dif_pos this]
  rw [Finset.sum_congr rfl h1, Cert.BlockedSum.sum_range_blocks 128 g 32, Finset.sum_range g]
  refine Finset.sum_congr rfl fun d _ => ?_
  show g d.val = f d
  simp only [g, dif_pos d.isLt]

/-! ## The two products that contract the feature axis, and their partial sums -/

/-- Entry (r, n) of x · wᵀ. -/
def base (X : FVec Ideal SX2 .f32) (W : FVec Ideal SW .f32) (r : Fin 8192) (n : Fin 4096) : EReal :=
  ∑ d : Fin 4096, X (ix2 r d) * W (ix2 n d)

/-- Entry (r, q) of x · b. -/
def down (X : FVec Ideal SX2 .f32) (B : FVec Ideal SB .f32) (r : Fin 8192) (q : Fin 16) : EReal :=
  ∑ d : Fin 4096, X (ix2 r d) * B (ix2 d q)

/-- The first `cnt` runs of entry (r, n) of x · wᵀ. -/
def accBase (X : FVec Ideal SX2 .f32) (W : FVec Ideal SW .f32) (r : Fin 8192) (n : Fin 4096) (cnt : ℕ) : EReal :=
  ∑ s ∈ range cnt, run128 (fun d => X (ix2 r d) * W (ix2 n d)) s

/-- The first `cnt` runs of entry (r, q) of x · b. -/
def accDown (X : FVec Ideal SX2 .f32) (B : FVec Ideal SB .f32) (r : Fin 8192) (q : Fin 16) (cnt : ℕ) : EReal :=
  ∑ s ∈ range cnt, run128 (fun d => X (ix2 r d) * B (ix2 d q)) s

theorem accBase_one (X : FVec Ideal SX2 .f32) (W : FVec Ideal SW .f32) (r : Fin 8192) (n : Fin 4096) :
    accBase X W r n 1 = run128 (fun d => X (ix2 r d) * W (ix2 n d)) 0 := by
  unfold accBase; rw [Finset.sum_range_one]

theorem accBase_succ (X : FVec Ideal SX2 .f32) (W : FVec Ideal SW .f32) (r : Fin 8192) (n : Fin 4096) (cnt : ℕ) :
    accBase X W r n (cnt + 1) = accBase X W r n cnt + run128 (fun d => X (ix2 r d) * W (ix2 n d)) cnt := by
  unfold accBase; rw [Finset.sum_range_succ]

theorem accBase_all (X : FVec Ideal SX2 .f32) (W : FVec Ideal SW .f32) (r : Fin 8192) (n : Fin 4096) :
    accBase X W r n 32 = base X W r n := sum_run128 _

theorem accDown_one (X : FVec Ideal SX2 .f32) (B : FVec Ideal SB .f32) (r : Fin 8192) (q : Fin 16) :
    accDown X B r q 1 = run128 (fun d => X (ix2 r d) * B (ix2 d q)) 0 := by
  unfold accDown; rw [Finset.sum_range_one]

theorem accDown_succ (X : FVec Ideal SX2 .f32) (B : FVec Ideal SB .f32) (r : Fin 8192) (q : Fin 16) (cnt : ℕ) :
    accDown X B r q (cnt + 1) = accDown X B r q cnt + run128 (fun d => X (ix2 r d) * B (ix2 d q)) cnt := by
  unfold accDown; rw [Finset.sum_range_succ]

theorem accDown_all (X : FVec Ideal SX2 .f32) (B : FVec Ideal SB .f32) (r : Fin 8192) (q : Fin 16) :
    accDown X B r q 32 = down X B r q := sum_run128 _

/-! ## The layer on the merged rows, and on the three-axis input -/

/-- The layer on the [8192, 4096] rows, with the bias as a [1, 4096] row. -/
def out2 (X : FVec Ideal SX2 .f32) (W : FVec Ideal SW .f32) (b2 : FVec Ideal Sb2 .f32) (B : FVec Ideal SB .f32)
    (A : FVec Ideal SA .f32) : FVec Ideal SX2 .f32 := fun j =>
  (base X W (j 0) (j 1) + b2 (ix2 (0 : Fin 1) (j 1))) + two * ∑ q : Fin 16, down X B (j 0) q * A (ix2 q (j 1))

/-- The layer on the [4, 2048, 4096] input: merge the two leading axes, apply `out2`, split them again. -/
def layer (h1 : SX3.ShapeCasts SX2) (h2 : Sb1.ShapeCasts Sb2) (h3 : SX2.ShapeCasts SX3)
    (x : FVec Ideal SX3 .f32) (W : FVec Ideal SW .f32) (bias : FVec Ideal Sb1 .f32) (B : FVec Ideal SB .f32)
    (A : FVec Ideal SA .f32) : FVec Ideal SX3 .f32 :=
  shapeCast SX3 (out2 (shapeCast SX2 x h1) W (shapeCast Sb2 bias h2) B A) h3

/-- Row 2048 b + s of the merged rows. -/
abbrev mrow (b : Fin 4) (s : Fin 2048) : Fin 8192 := ⟨2048 * b.val + s.val, by have := b.isLt; have := s.isLt; omega⟩

/-- The merged rows read at (2048 b + s, d) are the input at (b, s, d). -/
theorem merged_apply (h1 : SX3.ShapeCasts SX2) (x : FVec Ideal SX3 .f32) (b : Fin 4) (s : Fin 2048) (d : Fin 4096) :
    shapeCast SX2 x h1 (ix2 (mrow b s) d) = x (ix3 b s d) :=
  shapeCast_apply x h1 _ _ (by
    rw [Shape.rowMajor_val_three, Shape.rowMajor_val_two]
    show (b.val * 2048 + s.val) * 4096 + d.val = (2048 * b.val + s.val) * 4096 + d.val
    omega)

/-- The layer at (b, s, n), over the three-axis input itself. -/
theorem layer_apply (h1 : SX3.ShapeCasts SX2) (h2 : Sb1.ShapeCasts Sb2) (h3 : SX2.ShapeCasts SX3)
    (x : FVec Ideal SX3 .f32) (W : FVec Ideal SW .f32) (bias : FVec Ideal Sb1 .f32) (B : FVec Ideal SB .f32)
    (A : FVec Ideal SA .f32) (b : Fin 4) (s : Fin 2048) (n : Fin 4096) :
    layer h1 h2 h3 x W bias B A (ix3 b s n)
      = ((∑ d : Fin 4096, x (ix3 b s d) * W (ix2 n d)) + bias (ix1 n))
        + two * ∑ q : Fin 16, (∑ d : Fin 4096, x (ix3 b s d) * B (ix2 d q)) * A (ix2 q n) := by
  unfold layer
  rw [shapeCast_apply _ h3 (ix3 b s n) (ix2 (mrow b s) n) (by
    rw [Shape.rowMajor_val_three, Shape.rowMajor_val_two]
    show (2048 * b.val + s.val) * 4096 + n.val = (b.val * 2048 + s.val) * 4096 + n.val
    omega)]
  unfold out2 base down
  show ((∑ d : Fin 4096, shapeCast SX2 x h1 (ix2 (mrow b s) d) * W (ix2 n d)) + shapeCast Sb2 bias h2 (ix2 (0 : Fin 1) n))
      + two * ∑ q : Fin 16, (∑ d : Fin 4096, shapeCast SX2 x h1 (ix2 (mrow b s) d) * B (ix2 d q)) * A (ix2 q n) = _
  simp only [merged_apply, shapeCast_a_1a_apply]

end Cert.Lora

end
-- ==== Proof.LoraRef.lean ====
/-
  The reference program's result, read index by index, is the layer of `LoraSpec`.

  The reference forms x · wᵀ over the three-axis input directly (contracting the last axis of both operands),
  adds the bias broadcast along the two leading axes, forms (x · b) · a by two contractions, scales it by 2 and adds.
  Read at (b, s, n) each contraction is a sum over its contracted coordinate, and the operand indices are (b, s, d)
  and (n, d) for the first, (b, s, d) and (d, q) for the second, (b, s, q) and (q, n) for the third — the very sums
  `layer_apply` states. No law of the extended reals is needed on this side.
-/
import proofs.«159220_j69329362092463_1_alg».proof.Proof.Gen.ReferenceIdeal.Read
import proofs.«159220_j69329362092463_1_alg».proof.Proof.LoraSpec
import Idealize.ShloMosaic.Lib.ValueIdx
import Idealize.ShloMosaic.PureOps.Ideal.Laws

noncomputable section

namespace Cert.Lora.Ref

open Cert.ReferenceIdeal Cert.ReferenceIdeal.Gen Cert.ReferenceIdeal.Read
open Idealize.ShloMosaic Idealize.ShloMosaic.ValueIdx

/-- The first contraction's operand indices at (b, s, n) and d: x at (b, s, d), w at (n, d). -/
theorem lidx_base (b : Fin 4) (s : Fin 2048) (n : Fin 4096) (d : Fin 4096) :
    lidx_main_v0 (ix3 b s n) d = ix3 b s d :=
  funext fun a => Fin.ext (by match a with | ⟨0, _⟩ => rfl | ⟨1, _⟩ => rfl | ⟨2, _⟩ => rfl)
theorem ridx_base (b : Fin 4) (s : Fin 2048) (n : Fin 4096) (d : Fin 4096) :
    ridx_main_v0 (ix3 b s n) d = ix2 n d :=
  funext fun a => Fin.ext (by match a with | ⟨0, _⟩ => rfl | ⟨1, _⟩ => rfl)

/-- The bias, broadcast twice, is read at n. -/
theorem idx_bias (b : Fin 4) (s : Fin 2048) (n : Fin 4096) :
    idx_main_v1 (idx_main_v2 (ix3 b s n)) = ix1 n :=
  funext fun a => Fin.ext (by match a with | ⟨0, _⟩ => rfl)

/-- The third contraction's operand indices at (b, s, n) and q: x · b at (b, s, q), a at (q, n). -/
theorem lidx_up (b : Fin 4) (s : Fin 2048) (n : Fin 4096) (q : Fin 16) :
    lidx_main_v5 (ix3 b s n) q = ix3 b s q :=
  funext fun a => Fin.ext (by match a with | ⟨0, _⟩ => rfl | ⟨1, _⟩ => rfl | ⟨2, _⟩ => rfl)
theorem ridx_up (b : Fin 4) (s : Fin 2048) (n : Fin 4096) (q : Fin 16) :
    ridx_main_v5 (ix3 b s n) q = ix2 q n :=
  funext fun a => Fin.ext (by match a with | ⟨0, _⟩ => rfl | ⟨1, _⟩ => rfl)

/-- The second contraction's operand indices at (b, s, q) and d: x at (b, s, d), b at (d, q). -/
theorem lidx_down (b : Fin 4) (s : Fin 2048) (q : Fin 16) (d : Fin 4096) :
    lidx_main_v4 (ix3 b s q) d = ix3 b s d :=
  funext fun a => Fin.ext (by match a with | ⟨0, _⟩ => rfl | ⟨1, _⟩ => rfl | ⟨2, _⟩ => rfl)
theorem ridx_down (b : Fin 4) (s : Fin 2048) (q : Fin 16) (d : Fin 4096) :
    ridx_main_v4 (ix3 b s q) d = ix2 d q :=
  funext fun a => Fin.ext (by match a with | ⟨0, _⟩ => rfl | ⟨1, _⟩ => rfl)

/-- The reference's last stage is the layer. -/
theorem result_eq_layer (h1 : Cert.Lora.SX3.ShapeCasts Cert.Lora.SX2) (h2 : Cert.Lora.Sb1.ShapeCasts Cert.Lora.Sb2)
    (h3 : Cert.Lora.SX2.ShapeCasts Cert.Lora.SX3)
    (x0 : (⟨S4x2048x4096, .f32⟩ : BufTy).Contents (Elt Ideal)) (x1 : (⟨S4096x4096, .f32⟩ : BufTy).Contents (Elt Ideal))
    (x2 : (⟨S4096, .f32⟩ : BufTy).Contents (Elt Ideal)) (x3 : (⟨S4096x16, .f32⟩ : BufTy).Contents (Elt Ideal))
    (x4 : (⟨S16x4096, .f32⟩ : BufTy).Contents (Elt Ideal)) :
    val_main_v8 (F := Ideal) x0 x1 x2 x3 x4 = Cert.Lora.layer h1 h2 h3 x0 x1 x2 x3 x4 := by
  funext i
  obtain ⟨b, s, n, rfl⟩ : ∃ (b : Fin 4) (s : Fin 2048) (n : Fin 4096), i = ix3 b s n := ⟨i 0, i 1, i 2, eq_ix3 i⟩
  rw [Cert.Lora.layer_apply, val_main_v8_apply, val_main_v3_apply, val_main_v0_apply, val_main_v2_apply, val_main_v1_apply,
    val_main_v7_apply, val_main_v6_apply, val_main_cst_apply, val_main_v5_apply]
  simp only [val_main_v4_apply, lidx_base, ridx_base, idx_bias, lidx_up, ridx_up, lidx_down, ridx_down,
    Ideal.addf_def, Ideal.mulf_def, Ideal.ofBits_def]

end Cert.Lora.Ref

end
-- ==== Proof.LoraPieces.lean ====
/-
  What one grid point's body leaves in the two accumulators and in the output block, as values.

  The body stores each buffer whole, so what a buffer holds afterwards is its last store's value; a value the body
  loads from a buffer it has just stored is that store's value. At the first point of a run of 32 (the feature
  coordinate's block index is 0) both accumulators are reset and then stepped once; at the other points they are
  stepped from what the point before left; at the last point of a run the output block is formed from the two
  accumulators as just stepped, the a block and the bias row. Stated for any reading of the floats.
-/
import proofs.«159220_j69329362092463_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Idealize.ShloMosaic.Tactic
open Cert.KernelIdeal Cert.KernelIdeal.Gen

variable {F : FTy → Type} [FloatOps F]

theorem hz : (![0, 0] : Fin 2 → Nat) = fun _ => 0 := funext fun a => by fin_cases a <;> rfl

/-- First point of a run: the large accumulator is the step of the reset value. -/
theorem first_base (c : Dev nD) (i : grid0.Coords) (arg3 : Memref sig .tc .vmem S2048x128 .f32) (harg3 : arg3.IsWhole) (arg4 : Memref sig .tc .vmem S1024x128 .f32) (harg4 : arg4.IsWhole) (arg5 : Memref sig .tc .vmem S128x16 .f32) (harg5 : arg5.IsWhole) (arg6 : Memref sig .tc .vmem S16x1024 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : cond0_0 i) (hc1 : ¬cond0_1 i) (x0 : Vec F S2048x128 .f32) (x1 : Vec F S1024x128 .f32) (x2 : Vec F S128x16 .f32) (x3 : Vec F S16x1024 .f32) (x4 : Vec F S1x1024 .f32) :
    sout0_A_0 c i arg3 harg3 arg4 harg4 arg5 harg5 arg6 harg6 arg7 harg7 arg8 harg8 arg9 harg9 arg10 harg10 hc0 hc1 x0 x1 x2 x3 x4 = k0_pay4 x0 x1 k0_pay1 := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S2048x1024) hz, View.readCov_unit_zero (S := S2048x1024) _ hz]
  simp only [View.readAt_eq_ld, harg3.read_unread, harg4.read_unread, harg5.read_unread, harg6.read_unread, harg7.read_unread, harg9.read_unread, harg10.read_unread, View.ld_unit_zero (S := S2048x128) hz, View.ld_unit_zero (S := S1024x128) hz, View.ld_unit_zero (S := S128x16) hz, View.ld_unit_zero (S := S16x1024) hz, View.ld_unit_zero (S := S1x1024) hz, View.ld_unit_zero (S := S2048x1024) hz, View.ld_unit_zero (S := S2048x16) hz]

/-- First point of a run: the small accumulator is the step of the reset value. -/
theorem first_down (c : Dev nD) (i : grid0.Coords) (arg3 : Memref sig .tc .vmem S2048x128 .f32) (harg3 : arg3.IsWhole) (arg4 : Memref sig .tc .vmem S1024x128 .f32) (harg4 : arg4.IsWhole) (arg5 : Memref sig .tc .vmem S128x16 .f32) (harg5 : arg5.IsWhole) (arg6 : Memref sig .tc .vmem S16x1024 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : cond0_0 i) (hc1 : ¬cond0_1 i) (x0 : Vec F S2048x128 .f32) (x1 : Vec F S1024x128 .f32) (x2 : Vec F S128x16 .f32) (x3 : Vec F S16x1024 .f32) (x4 : Vec F S1x1024 .f32) :
    sout0_A_1 c i arg3 harg3 arg4 harg4 arg5 harg5 arg6 harg6 arg7 harg7 arg8 harg8 arg9 harg9 arg10 harg10 hc0 hc1 x0 x1 x2 x3 x4 = k0_pay5 x0 x2 k0_pay2 := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S2048x16) hz, View.readCov_unit_zero (S := S2048x16) _ hz]
  simp only [View.readAt_eq_ld, harg3.read_unread, harg4.read_unread, harg5.read_unread, harg6.read_unread, harg7.read_unread, harg9.read_unread, harg10.read_unread, View.ld_unit_zero (S := S2048x128) hz, View.ld_unit_zero (S := S1024x128) hz, View.ld_unit_zero (S := S128x16) hz, View.ld_unit_zero (S := S16x1024) hz, View.ld_unit_zero (S := S1x1024) hz, View.ld_unit_zero (S := S2048x1024) hz, View.ld_unit_zero (S := S2048x16) hz]

/-- A middle point: the large accumulator is stepped from what the point before left. -/
theorem mid_base (c : Dev nD) (i : grid0.Coords) (arg3 : Memref sig .tc .vmem S2048x128 .f32) (harg3 : arg3.IsWhole) (arg4 : Memref sig .tc .vmem S1024x128 .f32) (harg4 : arg4.IsWhole) (arg5 : Memref sig .tc .vmem S128x16 .f32) (harg5 : arg5.IsWhole) (arg6 : Memref sig .tc .vmem S16x1024 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : ¬cond0_0 i) (hc1 : ¬cond0_1 i) (x0 : Vec F S2048x128 .f32) (x1 : Vec F S1024x128 .f32) (x2 : Vec F S128x16 .f32) (x3 : Vec F S16x1024 .f32) (x4 : Vec F S1x1024 .f32) (xs0 : Vec F S2048x1024 .f32) (xs1 : Vec F S2048x16 .f32) :
    sout0_B_0 c i arg3 harg3 arg4 harg4 arg5 harg5 arg6 harg6 arg7 harg7 arg8 harg8 arg9 harg9 arg10 harg10 hc0 hc1 x0 x1 x2 x3 x4 xs0 xs1 = k0_pay4 x0 x1 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz]
  simp only [View.readAt_eq_ld, harg3.read_unread, harg4.read_unread, harg5.read_unread, harg6.read_unread, harg7.read_unread, harg9.read_unread, harg10.read_unread, View.ld_unit_zero (S := S2048x128) hz, View.ld_unit_zero (S := S1024x128) hz, View.ld_unit_zero (S := S128x16) hz, View.ld_unit_zero (S := S16x1024) hz, View.ld_unit_zero (S := S1x1024) hz, View.ld_unit_zero (S := S2048x1024) hz, View.ld_unit_zero (S := S2048x16) hz]

/-- A middle point: the small accumulator is stepped from what the point before left. -/
theorem mid_down (c : Dev nD) (i : grid0.Coords) (arg3 : Memref sig .tc .vmem S2048x128 .f32) (harg3 : arg3.IsWhole) (arg4 : Memref sig .tc .vmem S1024x128 .f32) (harg4 : arg4.IsWhole) (arg5 : Memref sig .tc .vmem S128x16 .f32) (harg5 : arg5.IsWhole) (arg6 : Memref sig .tc .vmem S16x1024 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : ¬cond0_0 i) (hc1 : ¬cond0_1 i) (x0 : Vec F S2048x128 .f32) (x1 : Vec F S1024x128 .f32) (x2 : Vec F S128x16 .f32) (x3 : Vec F S16x1024 .f32) (x4 : Vec F S1x1024 .f32) (xs0 : Vec F S2048x1024 .f32) (xs1 : Vec F S2048x16 .f32) :
    sout0_B_1 c i arg3 harg3 arg4 harg4 arg5 harg5 arg6 harg6 arg7 harg7 arg8 harg8 arg9 harg9 arg10 harg10 hc0 hc1 x0 x1 x2 x3 x4 xs0 xs1 = k0_pay5 x0 x2 xs1 := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz]
  simp only [View.readAt_eq_ld, harg3.read_unread, harg4.read_unread, harg5.read_unread, harg6.read_unread, harg7.read_unread, harg9.read_unread, harg10.read_unread, View.ld_unit_zero (S := S2048x128) hz, View.ld_unit_zero (S := S1024x128) hz, View.ld_unit_zero (S := S128x16) hz, View.ld_unit_zero (S := S16x1024) hz, View.ld_unit_zero (S := S1x1024) hz, View.ld_unit_zero (S := S2048x1024) hz, View.ld_unit_zero (S := S2048x16) hz]

/-- Last point of a run: the large accumulator is stepped as at a middle point. -/
theorem last_base (c : Dev nD) (i : grid0.Coords) (arg3 : Memref sig .tc .vmem S2048x128 .f32) (harg3 : arg3.IsWhole) (arg4 : Memref sig .tc .vmem S1024x128 .f32) (harg4 : arg4.IsWhole) (arg5 : Memref sig .tc .vmem S128x16 .f32) (harg5 : arg5.IsWhole) (arg6 : Memref sig .tc .vmem S16x1024 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : ¬cond0_0 i) (hc1 : cond0_1 i) (x0 : Vec F S2048x128 .f32) (x1 : Vec F S1024x128 .f32) (x2 : Vec F S128x16 .f32) (x3 : Vec F S16x1024 .f32) (x4 : Vec F S1x1024 .f32) (xs0 : Vec F S2048x1024 .f32) (xs1 : Vec F S2048x16 .f32) :
    sout0_C_0 c i arg3 harg3 arg4 harg4 arg5 harg5 arg6 harg6 arg7 harg7 arg8 harg8 arg9 harg9 arg10 harg10 hc0 hc1 x0 x1 x2 x3 x4 xs0 xs1 = k0_pay4 x0 x1 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg5.read_unread, harg6.read_unread, harg7.read_unread, harg9.read_unread, harg10.read_unread, View.ld_unit_zero (S := S2048x128) hz, View.ld_unit_zero (S := S1024x128) hz, View.ld_unit_zero (S := S128x16) hz, View.ld_unit_zero (S := S16x1024) hz, View.ld_unit_zero (S := S1x1024) hz, View.ld_unit_zero (S := S2048x1024) hz, View.ld_unit_zero (S := S2048x16) hz]

/-- Last point of a run: the small accumulator is stepped as at a middle point. -/
theorem last_down (c : Dev nD) (i : grid0.Coords) (arg3 : Memref sig .tc .vmem S2048x128 .f32) (harg3 : arg3.IsWhole) (arg4 : Memref sig .tc .vmem S1024x128 .f32) (harg4 : arg4.IsWhole) (arg5 : Memref sig .tc .vmem S128x16 .f32) (harg5 : arg5.IsWhole) (arg6 : Memref sig .tc .vmem S16x1024 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : ¬cond0_0 i) (hc1 : cond0_1 i) (x0 : Vec F S2048x128 .f32) (x1 : Vec F S1024x128 .f32) (x2 : Vec F S128x16 .f32) (x3 : Vec F S16x1024 .f32) (x4 : Vec F S1x1024 .f32) (xs0 : Vec F S2048x1024 .f32) (xs1 : Vec F S2048x16 .f32) :
    sout0_C_1 c i arg3 harg3 arg4 harg4 arg5 harg5 arg6 harg6 arg7 harg7 arg8 harg8 arg9 harg9 arg10 harg10 hc0 hc1 x0 x1 x2 x3 x4 xs0 xs1 = k0_pay5 x0 x2 xs1 := by
  unfold sout0_C_1
  rw [View.read_writes_eq_canon _ _ _ (scover0_C_1 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg5.read_unread, harg6.read_unread, harg7.read_unread, harg9.read_unread, harg10.read_unread, View.ld_unit_zero (S := S2048x128) hz, View.ld_unit_zero (S := S1024x128) hz, View.ld_unit_zero (S := S128x16) hz, View.ld_unit_zero (S := S16x1024) hz, View.ld_unit_zero (S := S1x1024) hz, View.ld_unit_zero (S := S2048x1024) hz, View.ld_unit_zero (S := S2048x16) hz]

/-- Last point of a run: the output block is formed from the two accumulators AS JUST STEPPED. -/
theorem last_out (c : Dev nD) (i : grid0.Coords) (arg3 : Memref sig .tc .vmem S2048x128 .f32) (harg3 : arg3.IsWhole) (arg4 : Memref sig .tc .vmem S1024x128 .f32) (harg4 : arg4.IsWhole) (arg5 : Memref sig .tc .vmem S128x16 .f32) (harg5 : arg5.IsWhole) (arg6 : Memref sig .tc .vmem S16x1024 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : ¬cond0_0 i) (hc1 : cond0_1 i) (x0 : Vec F S2048x128 .f32) (x1 : Vec F S1024x128 .f32) (x2 : Vec F S128x16 .f32) (x3 : Vec F S16x1024 .f32) (x4 : Vec F S1x1024 .f32) (xs0 : Vec F S2048x1024 .f32) (xs1 : Vec F S2048x16 .f32) :
    out0_C_5 c i arg3 harg3 arg4 harg4 arg5 harg5 arg6 harg6 arg7 harg7 arg8 harg8 arg9 harg9 arg10 harg10 hc0 hc1 x0 x1 x2 x3 x4 xs0 xs1 = k0_pay6 x3 (k0_pay5 x0 x2 xs1) (k0_pay4 x0 x1 xs0) x4 := by
  unfold out0_C_5
  rw [View.read_writes_eq_canon _ _ _ (cover0_C_5 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg5.read_unread, harg6.read_unread, harg7.read_unread, harg9.read_unread, harg10.read_unread, View.ld_unit_zero (S := S2048x128) hz, View.ld_unit_zero (S := S1024x128) hz, View.ld_unit_zero (S := S128x16) hz, View.ld_unit_zero (S := S16x1024) hz, View.ld_unit_zero (S := S1x1024) hz, View.ld_unit_zero (S := S2048x1024) hz, View.ld_unit_zero (S := S2048x16) hz, View.readCov_unit_zero (S := S2048x16) _ hz, View.readCov_unit_zero (S := S2048x1024) _ hz]

end Cert.KernelIdeal.Pieces

end
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.LibMatmulTransposedRhs.lean ====
/-
  A matrix product A · Bᵀ — a left operand [M, K] against a right operand stored [N, K], both contracted on their last
  axis, no batch axes (`DotDims.transposedRhs M K N`) — into the zero accumulator, read at an entry over the extended
  reals: entry (r, c) is the sum over k of a (r, k) · b (c, k). The left operand is read at the output's row and the
  contraction coordinate, the right one at the output's COLUMN and the contraction coordinate. Stated at any extents,
  with every index written by its coordinates.
-/
import Idealize.ShloMosaic.Lib.ValueIdx
import Idealize.ShloMosaic.PureOps.Ideal.Laws

noncomputable section

namespace Cert.MatmulTransposedRhs

open Idealize.ShloMosaic Idealize.ShloMosaic.ValueIdx

variable {M K N : ℕ}

/-- The left operand's first coordinate is the output's row: its axis 0 is the one kept axis of the left side, and
    the kept left axes come first among the output's. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from
      List.mem_singleton.mpr rfl)]
  rfl

/-- The left operand's second coordinate is the contraction coordinate. -/
theorem lhs_col (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- The right operand's first coordinate is the output's COLUMN: its axis 0 is the one kept axis of the right side,
    which comes after the left side's kept axis among the output's. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from
      List.mem_singleton.mpr rfl)]
  rfl

/-- The right operand's second coordinate is the contraction coordinate. -/
theorem rhs_col (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- Entry (r, c) of A · Bᵀ into the zero accumulator is the sum over k of a (r, k) · b (c, k). -/
theorem apply (prec : Option ContractPrecision) {φ₁ φ₂ : FTy} (a : FVec Ideal ⟨2, ![M, K]⟩ φ₁) (b : FVec Ideal ⟨2, ![N, K]⟩ φ₂)
    (r : Fin M) (c : Fin N) :
    FloatOps.matmul (DotDims.transposedRhs M K N) prec a b (constant ⟨2, ![M, N]⟩ .f32 0x00000000#32) (ix2 r c)
      = ∑ k : Fin K, a (ix2 r k) * b (ix2 c k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k)
      = ix2 r k :=
    funext fun x => Fin.ext (by
      match x with
      | ⟨0, _⟩ => exact lhs_row _ _
      | ⟨1, _⟩ => exact (lhs_col _ _).trans hk)
  have er : (DotDims.transposedRhs M K N).rhsIdx (ix2 r c) ((contrEquiv1 (DotDims.transposedRhs M K N) K rfl rfl).symm k)
      = ix2 c k :=
    funext fun x => Fin.ext (by
      match x with
      | ⟨0, _⟩ => exact rhs_row _ _
      | ⟨1, _⟩ => exact (rhs_col _ _).trans hk)
  rw [el, er]

end Cert.MatmulTransposedRhs

end
-- ==== Proof.LoraPayloads.lean ====
/-
  The kernel body's arithmetic, read at an entry over the extended reals.

  One grid point contributes one run of 128 feature entries to each accumulator: to the [2048, 1024] accumulator the
  product of the x block [2048, 128] with the TRANSPOSE of the w block [1024, 128], to the [2048, 16] accumulator the
  product of the x block with the b block [128, 16]. The last point of a run of 32 forms
  (accumulator + bias row) + 2 * (small accumulator · a block). A change of float format is the identity on the
  extended reals, a cast of a shape to itself is the identity, and a product into the zero accumulator is the plain
  sum over the contracted coordinate.
-/
import proofs.«159220_j69329362092463_1_alg».proof.Proof.Gen.KernelIdeal.Skeleton
import proofs.«159220_j69329362092463_1_alg».proof.Proof.LibPlainMatmul
import proofs.«159220_j69329362092463_1_alg».proof.Proof.LibMatmulTransposedRhs
import proofs.«159220_j69329362092463_1_alg».proof.Proof.LoraSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payloads

open Idealize.ShloMosaic Idealize.ShloMosaic.ValueIdx
open Cert.KernelIdeal Cert.KernelIdeal.Gen

/-- x block times the transposed w block, into zero: entry (p, q) is the sum over e of xb (p, e) * wb (q, e). -/
theorem prodW (a : FVec Ideal S2048x128 .bf16) (b : FVec Ideal S1024x128 .bf16) (p : Fin 2048) (q : Fin 1024) :
    matmul dot_S2048x128_S1024x128_S2048x1024_1_1_0_0_n_n none a b (constant S2048x1024 .f32 0x00000000#32) (ix2 p q)
      = ∑ e : Fin 128, a (ix2 p e) * b (ix2 q e) :=
  Cert.MatmulTransposedRhs.apply (M := 2048) (K := 128) (N := 1024) none a b p q

/-- x block times the b block, into zero: entry (p, r) is the sum over e of xb (p, e) * bb (e, r). -/
theorem prodB (a : FVec Ideal S2048x128 .bf16) (b : FVec Ideal S128x16 .bf16) (p : Fin 2048) (r : Fin 16) :
    matmul dot_S2048x128_S128x16_S2048x16_1_0_0_1_n_n none a b (constant S2048x16 .f32 0x00000000#32) (ix2 p r)
      = ∑ e : Fin 128, a (ix2 p e) * b (ix2 e r) :=
  Cert.PlainMatmul.apply (M := 2048) (K := 128) (N := 16) none a b p r

/-- The small accumulator times the a block, into zero: entry (p, q) is the sum over r of sb (p, r) * ab (r, q). -/
theorem prodA (a : FVec Ideal S2048x16 .bf16) (b : FVec Ideal S16x1024 .bf16) (p : Fin 2048) (q : Fin 1024) :
    matmul dot_S2048x16_S16x1024_S2048x1024_1_0_0_1_n_n none a b (constant S2048x1024 .f32 0x00000000#32) (ix2 p q)
      = ∑ r : Fin 16, a (ix2 p r) * b (ix2 r q) :=
  Cert.PlainMatmul.apply (M := 2048) (K := 16) (N := 1024) none a b p q

/-- The reset stores zero into the large accumulator. -/
theorem resetBase_apply (j : S2048x1024.Idx) : k0_pay1 (F := Ideal) j = 0 := by
  unfold k0_pay1
  simp only [shapeCast_self]
  exact Ideal.ofBits_zero_f32

/-- The reset stores zero into the small accumulator. -/
theorem resetDown_apply (j : S2048x16.Idx) : k0_pay2 (F := Ideal) j = 0 := by
  unfold k0_pay2
  simp only [shapeCast_self]
  exact Ideal.ofBits_zero_f32

/-- One point's step of the large accumulator: + the run's part of x · wᵀ. -/
theorem stepBase_apply (x0 : Vec Ideal S2048x128 .f32) (x1 : Vec Ideal S1024x128 .f32) (acc : Vec Ideal S2048x1024 .f32)
    (p : Fin 2048) (q : Fin 1024) :
    k0_pay4 (F := Ideal) x0 x1 acc (ix2 p q) = acc (ix2 p q) + ∑ e : Fin 128, x0 (ix2 p e) * x1 (ix2 q e) := by
  unfold k0_pay4 k0_pay3
  simp only [shapeCast_self]
  exact congrArg (acc (ix2 p q) + ·) (prodW _ _ p q)

/-- One point's step of the small accumulator: + the run's part of x · b. -/
theorem stepDown_apply (x0 : Vec Ideal S2048x128 .f32) (x2 : Vec Ideal S128x16 .f32) (acc : Vec Ideal S2048x16 .f32)
    (p : Fin 2048) (r : Fin 16) :
    k0_pay5 (F := Ideal) x0 x2 acc (ix2 p r) = acc (ix2 p r) + ∑ e : Fin 128, x0 (ix2 p e) * x2 (ix2 e r) := by
  unfold k0_pay5 k0_pay3
  simp only [shapeCast_self]
  exact congrArg (acc (ix2 p r) + ·) (prodB _ _ p r)

/-- The last point of a run: (large accumulator + bias row) + 2 * (small accumulator · a block). -/
theorem finish_apply (ab : Vec Ideal S16x1024 .f32) (sb : Vec Ideal S2048x16 .f32) (acc : Vec Ideal S2048x1024 .f32)
    (bb : Vec Ideal S1x1024 .f32) (p : Fin 2048) (q : Fin 1024) :
    k0_pay6 (F := Ideal) ab sb acc bb (ix2 p q)
      = (acc (ix2 p q) + bb (ix2 (0 : Fin 1) q)) + Cert.Lora.two * ∑ r : Fin 16, sb (ix2 p r) * ab (ix2 r q) := by
  unfold k0_pay6
  simp only [shapeCast_self]
  exact congrArg₂ (· + ·) (congrArg (acc (ix2 p q) + ·) (broadcastTo_1b_ab_apply bb _ p q))
    (congrArg (Cert.Lora.two * ·) (prodA _ _ p q))

end Cert.KernelIdeal.Payloads

end
-- ==== Proof.LoraBlocks.lean ====
/-
  The windows' blocks, read through the arrays the region finds.

  Grid point t stands for the triple (i, j, k) = (t / 128, (t / 32) % 4, t % 32): i counts blocks of 2048 rows,
  j blocks of 1024 output features, k runs of 128 input features, k moving fastest. At that point the x window holds
  rows 2048 i … of the merged input and feature run k; the w window output features 1024 j … and feature run k; the
  b window feature run k (all 16 columns); the a window and the bias row output features 1024 j …; and the output
  window rows 2048 i …, output features 1024 j ….
-/
import proofs.«159220_j69329362092463_1_alg».proof.Proof.Gen.KernelIdeal.Frame
import Idealize.ShloMosaic.Lib.ValueIdx
import Idealize.ShloMosaic.Lib.Pipeline.Value

noncomputable section

namespace Cert.KernelIdeal.Blocks

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- The arrays as the region finds them, at their literal types. -/
abbrev Xarr (c : Dev nD) : Vec F S8192x4096 .f32 := V m c main_v0
abbrev Warr (c : Dev nD) : Vec F S4096x4096 .f32 := V m c main_arg1
abbrev Barr (c : Dev nD) : Vec F S4096x16 .f32 := V m c main_arg3
abbrev Aarr (c : Dev nD) : Vec F S16x4096 .f32 := V m c main_arg4
abbrev brow (c : Dev nD) : Vec F S1x4096 .f32 := V m c main_v1

/-- The input blocks at a point, at their literal types. -/
abbrev xblk (c : Dev nD) (t : Fin cfg0.N) : Vec F S2048x128 .f32 := iblk m c 0 t
abbrev wblk (c : Dev nD) (t : Fin cfg0.N) : Vec F S1024x128 .f32 := iblk m c 1 t
abbrev bblk (c : Dev nD) (t : Fin cfg0.N) : Vec F S128x16 .f32 := iblk m c 2 t
abbrev ablk (c : Dev nD) (t : Fin cfg0.N) : Vec F S16x1024 .f32 := iblk m c 3 t
abbrev biasblk (c : Dev nD) (t : Fin cfg0.N) : Vec F S1x1024 .f32 := iblk m c 4 t

/-- The printed index maps in closed form, decided over the 512 points. -/
theorem idx_facts : ∀ t : Fin cfg0.N,
    win0_0.index t (0 : Fin 2) = t.val / 128 ∧ win0_0.index t (1 : Fin 2) = t.val % 32
    ∧ win0_1.index t (0 : Fin 2) = (t.val / 32) % 4 ∧ win0_1.index t (1 : Fin 2) = t.val % 32
    ∧ win0_2.index t (0 : Fin 2) = t.val % 32 ∧ win0_2.index t (1 : Fin 2) = 0
    ∧ win0_3.index t (0 : Fin 2) = 0 ∧ win0_3.index t (1 : Fin 2) = (t.val / 32) % 4
    ∧ win0_4.index t (0 : Fin 2) = 0 ∧ win0_4.index t (1 : Fin 2) = (t.val / 32) % 4
    ∧ win0_5.index t (0 : Fin 2) = t.val / 128 ∧ win0_5.index t (1 : Fin 2) = (t.val / 32) % 4 :=
  (by decide +kernel : ∀ t : Fin grid0.N, _)

/-- The x block at (p, e) is the merged input at (2048 i + p, 128 k + e). -/
theorem xblk_apply (c : Dev nD) (t : Fin cfg0.N) (y : S2048x128.Idx) (J : S8192x4096.Idx)
    (h0 : (J 0).val = 2048 * (t.val / 128) + (y 0).val) (h1 : (J 1).val = 128 * (t.val % 32) + (y 1).val) :
    xblk m c t y = Xarr m c J := by
  obtain ⟨e0, e1, -⟩ := idx_facts t
  show iblk m c 0 t y = V m c main_v0 J
  unfold iblk
  rw [View.read_apply]
  show V m c main_v0 _ = V m c main_v0 J
  congr 1
  funext a
  apply Fin.ext
  match a with
  | ⟨0, _⟩ => show win0_0.index t (0 : Fin 2) * 2048 + 1 * (y 0).val = (J 0).val; rw [e0, h0]; omega
  | ⟨1, _⟩ => show win0_0.index t (1 : Fin 2) * 128 + 1 * (y 1).val = (J 1).val; rw [e1, h1]; omega

/-- The w block at (q, e) is w at (1024 j + q, 128 k + e). -/
theorem wblk_apply (c : Dev nD) (t : Fin cfg0.N) (y : S1024x128.Idx) (J : S4096x4096.Idx)
    (h0 : (J 0).val = 1024 * ((t.val / 32) % 4) + (y 0).val) (h1 : (J 1).val = 128 * (t.val % 32) + (y 1).val) :
    wblk m c t y = Warr m c J := by
  obtain ⟨-, -, e0, e1, -⟩ := idx_facts t
  show iblk m c 1 t y = V m c main_arg1 J
  unfold iblk
  rw [View.read_apply]
  show V m c main_arg1 _ = V m c main_arg1 J
  congr 1
  funext a
  apply Fin.ext
  match a with
  | ⟨0, _⟩ => show win0_1.index t (0 : Fin 2) * 1024 + 1 * (y 0).val = (J 0).val; rw [e0, h0]; omega
  | ⟨1, _⟩ => show win0_1.index t (1 : Fin 2) * 128 + 1 * (y 1).val = (J 1).val; rw [e1, h1]; omega

/-- The b block at (e, r) is b at (128 k + e, r). -/
theorem bblk_apply (c : Dev nD) (t : Fin cfg0.N) (y : S128x16.Idx) (J : S4096x16.Idx)
    (h0 : (J 0).val = 128 * (t.val % 32) + (y 0).val) (h1 : (J 1).val = (y 1).val) :
    bblk m c t y = Barr m c J := by
  obtain ⟨-, -, -, -, e0, e1, -⟩ := idx_facts t
  show iblk m c 2 t y = V m c main_arg3 J
  unfold iblk
  rw [View.read_apply]
  show V m c main_arg3 _ = V m c main_arg3 J
  congr 1
  funext a
  apply Fin.ext
  match a with
  | ⟨0, _⟩ => show win0_2.index t (0 : Fin 2) * 128 + 1 * (y 0).val = (J 0).val; rw [e0, h0]; omega
  | ⟨1, _⟩ => show win0_2.index t (1 : Fin 2) * 16 + 1 * (y 1).val = (J 1).val; rw [e1, h1]; omega

/-- The a block at (r, q) is a at (r, 1024 j + q). -/
theorem ablk_apply (c : Dev nD) (t : Fin cfg0.N) (y : S16x1024.Idx) (J : S16x4096.Idx)
    (h0 : (J 0).val = (y 0).val) (h1 : (J 1).val = 1024 * ((t.val / 32) % 4) + (y 1).val) :
    ablk m c t y = Aarr m c J := by
  obtain ⟨-, -, -, -, -, -, e0, e1, -⟩ := idx_facts t
  show iblk m c 3 t y = V m c main_arg4 J
  unfold iblk
  rw [View.read_apply]
  show V m c main_arg4 _ = V m c main_arg4 J
  congr 1
  funext a
  apply Fin.ext
  match a with
  | ⟨0, _⟩ => show win0_3.index t (0 : Fin 2) * 16 + 1 * (y 0).val = (J 0).val; rw [e0, h0]; omega
  | ⟨1, _⟩ => show win0_3.index t (1 : Fin 2) * 1024 + 1 * (y 1).val = (J 1).val; rw [e1, h1]; omega

/-- The bias block at (0, q) is the bias row at (0, 1024 j + q). -/
theorem biasblk_apply (c : Dev nD) (t : Fin cfg0.N) (y : S1x1024.Idx) (J : S1x4096.Idx)
    (h0 : (J 0).val = (y 0).val) (h1 : (J 1).val = 1024 * ((t.val / 32) % 4) + (y 1).val) :
    biasblk m c t y = brow m c J := by
  obtain ⟨-, -, -, -, -, -, -, -, e0, e1, -⟩ := idx_facts t
  show iblk m c 4 t y = V m c main_v1 J
  unfold iblk
  rw [View.read_apply]
  show V m c main_v1 _ = V m c main_v1 J
  congr 1
  funext a
  apply Fin.ext
  match a with
  | ⟨0, _⟩ => show win0_4.index t (0 : Fin 2) * 1 + 1 * (y 0).val = (J 0).val; rw [e0, h0]; omega
  | ⟨1, _⟩ => show win0_4.index t (1 : Fin 2) * 1024 + 1 * (y 1).val = (J 1).val; rw [e1, h1]; omega

end Cert.KernelIdeal.Blocks

end
-- ==== Proof.LoraAccum.lean ====
/-
  The accumulators after every grid point, and the output block at the last point of a run.

  At point t = (i, j, k) the large accumulator holds, at (p, q), the first k + 1 runs of entry
  (2048 i + p, 1024 j + q) of x · wᵀ, and the small accumulator, at (p, r), the first k + 1 runs of entry
  (2048 i + p, r) of x · b: at k = 0 both are reset to zero and one run is added (0 + a = a), at every other point one
  run is added to what the point before left, and the point before belongs to the same (i, j). At k = 31 all 32 runs
  are in, the accumulators are the whole products, and the output block is the layer's entry.
-/
import proofs.«159220_j69329362092463_1_alg».proof.Proof.LoraPieces
import proofs.«159220_j69329362092463_1_alg».proof.Proof.LoraPayloads
import proofs.«159220_j69329362092463_1_alg».proof.Proof.LoraBlocks
import proofs.«159220_j69329362092463_1_alg».proof.Proof.LoraSpec

noncomputable section

namespace Cert.KernelIdeal.Accum

open Idealize.ShloMosaic Idealize.ShloMosaic.TcCoe Idealize.SL.Sem Idealize.ShloMosaic.ValueIdx
open Cert.KernelIdeal Cert.KernelIdeal.Gen Cert.KernelIdeal.Blocks Cert.KernelIdeal.Pieces Cert.KernelIdeal.Payloads
open Cert.Lora

variable (m : (ℓ : Loc nD τ sig) → Buf (Elt Ideal) ℓ)

/-! ## What each kind of point leaves, over the point's blocks -/

/-- First point of a run (k = 0). -/
theorem at_first (c : Dev nD) (t : Fin cfg0.N) (h0 : t.val % 32 = 0) (h1 : ¬t.val % 32 = 31) :
    (outsAt0 m c t.val t.isLt).2.1 = k0_pay4 (xblk m c t) (wblk m c t) (k0_pay1 (F := Ideal))
    ∧ (outsAt0 m c t.val t.isLt).2.2 = k0_pay5 (xblk m c t) (bblk m c t) (k0_pay2 (F := Ideal)) := by
  rw [outsAt0_A m c t h0 h1]
  dsimp only
  exact ⟨first_base (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (xblk m c t) (wblk m c t) (bblk m c t) (ablk m c t) (biasblk m c t),
    first_down (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (xblk m c t) (wblk m c t) (bblk m c t) (ablk m c t) (biasblk m c t)⟩

/-- Any later point of a run (k > 0): one step from what the point before left. -/
theorem at_step (c : Dev nD) (t : Fin cfg0.N) (h0 : ¬t.val % 32 = 0) :
    (outsAt0 m c t.val t.isLt).2.1 = k0_pay4 (xblk m c t) (wblk m c t) (outsAt0 m c (t.val - 1) (Nat.lt_of_le_of_lt (Nat.sub_le _ _) t.isLt)).2.1
    ∧ (outsAt0 m c t.val t.isLt).2.2 = k0_pay5 (xblk m c t) (bblk m c t) (outsAt0 m c (t.val - 1) (Nat.lt_of_le_of_lt (Nat.sub_le _ _) t.isLt)).2.2 := by
  by_cases h1 : t.val % 32 = 31
  · rw [outsAt0_C m c t h0 h1]
    dsimp only
    exact ⟨last_base (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (xblk m c t) (wblk m c t) (bblk m c t) (ablk m c t) (biasblk m c t) (outsAt0 m c (t.val - 1) (Nat.lt_of_le_of_lt (Nat.sub_le _ _) t.isLt)).2.1 (outsAt0 m c (t.val - 1) (Nat.lt_of_le_of_lt (Nat.sub_le _ _) t.isLt)).2.2,
      last_down (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (xblk m c t) (wblk m c t) (bblk m c t) (ablk m c t) (biasblk m c t) (outsAt0 m c (t.val - 1) (Nat.lt_of_le_of_lt (Nat.sub_le _ _) t.isLt)).2.1 (outsAt0 m c (t.val - 1) (Nat.lt_of_le_of_lt (Nat.sub_le _ _) t.isLt)).2.2⟩
  · rw [outsAt0_B m c t h0 h1]
    dsimp only
    exact ⟨mid_base (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (xblk m c t) (wblk m c t) (bblk m c t) (ablk m c t) (biasblk m c t) (outsAt0 m c (t.val - 1) (Nat.lt_of_le_of_lt (Nat.sub_le _ _) t.isLt)).2.1 (outsAt0 m c (t.val - 1) (Nat.lt_of_le_of_lt (Nat.sub_le _ _) t.isLt)).2.2,
      mid_down (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (xblk m c t) (wblk m c t) (bblk m c t) (ablk m c t) (biasblk m c t) (outsAt0 m c (t.val - 1) (Nat.lt_of_le_of_lt (Nat.sub_le _ _) t.isLt)).2.1 (outsAt0 m c (t.val - 1) (Nat.lt_of_le_of_lt (Nat.sub_le _ _) t.isLt)).2.2⟩

/-- Last point of a run (k = 31): the output block, from the accumulators as this point leaves them. -/
theorem at_last (c : Dev nD) (t : Fin cfg0.N) (h0 : ¬t.val % 32 = 0) (h1 : t.val % 32 = 31) :
    (outsAt0 m c t.val t.isLt).1
      = k0_pay6 (ablk m c t) (outsAt0 m c t.val t.isLt).2.2 (outsAt0 m c t.val t.isLt).2.1 (biasblk m c t) := by
  rw [outsAt0_C m c t h0 h1]
  dsimp only
  rw [last_base (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (xblk m c t) (wblk m c t) (bblk m c t) (ablk m c t) (biasblk m c t) (outsAt0 m c (t.val - 1) (Nat.lt_of_le_of_lt (Nat.sub_le _ _) t.isLt)).2.1 (outsAt0 m c (t.val - 1) (Nat.lt_of_le_of_lt (Nat.sub_le _ _) t.isLt)).2.2,
    last_down (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (xblk m c t) (wblk m c t) (bblk m c t) (ablk m c t) (biasblk m c t) (outsAt0 m c (t.val - 1) (Nat.lt_of_le_of_lt (Nat.sub_le _ _) t.isLt)).2.1 (outsAt0 m c (t.val - 1) (Nat.lt_of_le_of_lt (Nat.sub_le _ _) t.isLt)).2.2]
  exact last_out (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (xblk m c t) (wblk m c t) (bblk m c t) (ablk m c t) (biasblk m c t) (outsAt0 m c (t.val - 1) (Nat.lt_of_le_of_lt (Nat.sub_le _ _) t.isLt)).2.1 (outsAt0 m c (t.val - 1) (Nat.lt_of_le_of_lt (Nat.sub_le _ _) t.isLt)).2.2

/-! ## One point's run of each product, over the arrays -/

/-- The x block against the w block, contracted: run k of entry (2048 i + p, 1024 j + q) of x · wᵀ. -/
theorem run_base (c : Dev nD) (t : Fin cfg0.N) (p : Fin 2048) (q : Fin 1024) (R : Fin 8192) (Cn : Fin 4096)
    (hR : R.val = 2048 * (t.val / 128) + p.val) (hC : Cn.val = 1024 * ((t.val / 32) % 4) + q.val)
    (s : ℕ) (hs : s = t.val % 32) :
    ∑ e : Fin 128, xblk m c t (ix2 p e) * wblk m c t (ix2 q e)
      = run128 (fun d => Xarr m c (ix2 R d) * Warr m c (ix2 Cn d)) s := by
  subst hs
  rw [run128_of_lt _ _ (Nat.mod_lt _ (by decide))]
  refine Finset.sum_congr rfl fun e _ => ?_
  rw [xblk_apply m c t (ix2 p e) (ix2 R ⟨128 * (t.val % 32) + e.val, by have := e.isLt; omega⟩) hR rfl,
    wblk_apply m c t (ix2 q e) (ix2 Cn ⟨128 * (t.val % 32) + e.val, by have := e.isLt; omega⟩) hC rfl]

/-- The x block against the b block, contracted: run k of entry (2048 i + p, r) of x · b. -/
theorem run_down (c : Dev nD) (t : Fin cfg0.N) (p : Fin 2048) (r : Fin 16) (R : Fin 8192)
    (hR : R.val = 2048 * (t.val / 128) + p.val) (s : ℕ) (hs : s = t.val % 32) :
    ∑ e : Fin 128, xblk m c t (ix2 p e) * bblk m c t (ix2 e r)
      = run128 (fun d => Xarr m c (ix2 R d) * Barr m c (ix2 d r)) s := by
  subst hs
  rw [run128_of_lt _ _ (Nat.mod_lt _ (by decide))]
  refine Finset.sum_congr rfl fun e _ => ?_
  rw [xblk_apply m c t (ix2 p e) (ix2 R ⟨128 * (t.val % 32) + e.val, by have := e.isLt; omega⟩) hR rfl,
    bblk_apply m c t (ix2 e r) (ix2 ⟨128 * (t.val % 32) + e.val, by have := e.isLt; omega⟩ r) rfl rfl]

/-! ## The accumulators after every point -/

/-- After point n = (i, j, k): the first k + 1 runs of both products, at the rows of block i and the output
    features of block j. By induction on the point. -/
theorem acc_inv (c : Dev nD) : ∀ (n : ℕ) (h : n < cfg0.N),
    (∀ (p : Fin 2048) (q : Fin 1024) (R : Fin 8192) (Cn : Fin 4096), R.val = 2048 * (n / 128) + p.val →
        Cn.val = 1024 * ((n / 32) % 4) + q.val → ∀ cnt : ℕ, cnt = n % 32 + 1 →
        (outsAt0 m c n h).2.1 (ix2 p q) = accBase (Xarr m c) (Warr m c) R Cn cnt)
    ∧ (∀ (p : Fin 2048) (r : Fin 16) (R : Fin 8192), R.val = 2048 * (n / 128) + p.val → ∀ cnt : ℕ, cnt = n % 32 + 1 →
        (outsAt0 m c n h).2.2 (ix2 p r) = accDown (Xarr m c) (Barr m c) R r cnt)
  | 0, h => by
    have e := at_first m c ⟨0, h⟩ (Nat.zero_mod _) (by show ¬(0 % 32 = 31); decide)
    refine ⟨fun p q R Cn hR hC cnt hcnt => ?_, fun p r R hR cnt hcnt => ?_⟩
    · obtain rfl : cnt = 1 := hcnt
      rw [congrFun e.1 (ix2 p q), stepBase_apply, resetBase_apply, zero_add,
        run_base m c ⟨0, h⟩ p q R Cn hR hC 0 rfl]
      exact (accBase_one _ _ _ _).symm
    · obtain rfl : cnt = 1 := hcnt
      rw [congrFun e.2 (ix2 p r), stepDown_apply, resetDown_apply, zero_add,
        run_down m c ⟨0, h⟩ p r R hR 0 rfl]
      exact (accDown_one _ _ _ _).symm
  | n + 1, h => by
    have hN : n + 1 < 512 := lt_of_lt_of_eq h (show cfg0.N = 512 from N_0)
    by_cases h0 : (n + 1) % 32 = 0
    · have e := at_first m c ⟨n + 1, h⟩ h0 (by dsimp only; omega)
      refine ⟨fun p q R Cn hR hC cnt hcnt => ?_, fun p r R hR cnt hcnt => ?_⟩
      · obtain rfl : cnt = 1 := by omega
        rw [congrFun e.1 (ix2 p q), stepBase_apply, resetBase_apply, zero_add,
          run_base m c ⟨n + 1, h⟩ p q R Cn hR hC 0 h0.symm]
        exact (accBase_one _ _ _ _).symm
      · obtain rfl : cnt = 1 := by omega
        rw [congrFun e.2 (ix2 p r), stepDown_apply, resetDown_apply, zero_add,
          run_down m c ⟨n + 1, h⟩ p r R hR 0 h0.symm]
        exact (accDown_one _ _ _ _).symm
    · have ih := acc_inv c n (Nat.lt_of_succ_lt h)
      have e := at_step m c ⟨n + 1, h⟩ h0
      refine ⟨fun p q R Cn hR hC cnt hcnt => ?_, fun p r R hR cnt hcnt => ?_⟩
      · obtain rfl : cnt = (n % 32 + 1) + 1 := by omega
        rw [congrFun e.1 (ix2 p q), stepBase_apply,
          run_base m c ⟨n + 1, h⟩ p q R Cn hR hC (n % 32 + 1) (by dsimp only; omega)]
        show (outsAt0 m c n _).2.1 (ix2 p q) + _ = _
        rw [ih.1 p q R Cn (by omega) (by omega) (n % 32 + 1) rfl]
        exact (accBase_succ _ _ _ _ _).symm
      · obtain rfl : cnt = (n % 32 + 1) + 1 := by omega
        rw [congrFun e.2 (ix2 p r), stepDown_apply,
          run_down m c ⟨n + 1, h⟩ p r R hR (n % 32 + 1) (by dsimp only; omega)]
        show (outsAt0 m c n _).2.2 (ix2 p r) + _ = _
        rw [ih.2 p r R (by omega) (n % 32 + 1) rfl]
        exact (accDown_succ _ _ _ _ _).symm

/-! ## The output block at the last point of a run -/

/-- At t = (i, j, 31) the output block holds, at (p, q), the layer's entry (2048 i + p, 1024 j + q). -/
theorem last_value (c : Dev nD) (t : Fin cfg0.N) (h31 : t.val % 32 = 31) (p : Fin 2048) (q : Fin 1024)
    (R : Fin 8192) (Cn : Fin 4096) (hR : R.val = 2048 * (t.val / 128) + p.val)
    (hC : Cn.val = 1024 * ((t.val / 32) % 4) + q.val) :
    (outsAt0 m c t.val t.isLt).1 (ix2 p q)
      = out2 (Xarr m c) (Warr m c) (brow m c) (Barr m c) (Aarr m c) (ix2 R Cn) := by
  have inv := acc_inv m c t.val t.isLt
  show _ = (base (Xarr m c) (Warr m c) R Cn + brow m c (ix2 (0 : Fin 1) Cn))
    + two * ∑ r : Fin 16, down (Xarr m c) (Barr m c) R r * Aarr m c (ix2 r Cn)
  rw [congrFun (at_last m c t (by omega) h31) (ix2 p q), finish_apply,
    inv.1 p q R Cn hR hC 32 (by omega), accBase_all,
    biasblk_apply m c t (ix2 (0 : Fin 1) q) (ix2 (0 : Fin 1) Cn) rfl hC]
  refine congrArg (fun z => (base (Xarr m c) (Warr m c) R Cn + brow m c (ix2 (0 : Fin 1) Cn)) + two * z)
    (Finset.sum_congr rfl fun r _ => ?_)
  rw [inv.2 p r R hR 32 (by omega), accDown_all, ablk_apply m c t (ix2 r q) (ix2 r Cn) rfl hC]

end Cert.KernelIdeal.Accum

end
-- ==== Proof.LoraRun.lean ====
/-
  The idealized kernel's run, read: its result array is the layer of its five argument arrays.

  The output window is written back only at the last point of each run of 32 (k = 31); the block written back at
  (i, j, 31) is rows 2048 i … and output features 1024 j … of the layer on the merged rows, and the 16 such blocks
  tile the [8192, 4096] array, so after the region that array IS the layer on the merged rows. Before the region the
  host merges the input's two leading axes and turns the bias into a one-row matrix; after it the host splits the
  leading axis again.
-/
import proofs.«159220_j69329362092463_1_alg».proof.Proof.LoraAccum
import Idealize.ShloMosaic.Lib.Pipeline.Value
import Idealize.ShloMosaic.Lib.StableHlo.Run
import Idealize.ShloMosaic.Lib.Tactic

noncomputable section

namespace Cert.KernelIdeal.RunValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.KernelIdeal.Accum
open Cert.Lora

variable (m : (ℓ : Loc nD τ sig) → Buf (Elt Ideal) ℓ) (ρ : Dev nD → PrngReg)

/-- What the [8192, 4096] result of the region holds: the layer on the merged rows. -/
abbrev merged (c : Dev nD) : Buf (Elt Ideal) ((c : Thread nD τ).loc main_v2) :=
  out2 (Xarr m c) (Warr m c) (brow m c) (Barr m c) (Aarr m c)

/-- `last_value` with the block index and the array index as they come. -/
theorem last_value_at (c : Dev nD) (t : Fin cfg0.N) (h31 : t.val % 32 = 31) (y : S2048x1024.Idx) (J : S8192x4096.Idx)
    (h0 : (J 0).val = 2048 * (t.val / 128) + (y 0).val) (h1 : (J 1).val = 1024 * ((t.val / 32) % 4) + (y 1).val) :
    (outsAt0 m c t.val t.isLt).1 y = merged m c J := by
  calc (outsAt0 m c t.val t.isLt).1 y
      = (outsAt0 m c t.val t.isLt).1 (ix2 (y 0) (y 1)) := congrArg _ (eq_ix2 y)
    _ = merged m c (ix2 (J 0) (J 1)) := last_value m c t h31 (y 0) (y 1) (J 0) (J 1) h0 h1
    _ = merged m c J := (congrArg _ (eq_ix2 J)).symm

/-- What a point that writes back writes: its block of the layer on the merged rows. -/
theorem flushed_eq (c : Dev nD) (t : Fin cfg0.N) (hf : (cfg0.win 5).flush t = true) :
    (dats m 0 c).flushed 5 t = ((cfg0.win 5).blk t).view.read (Elt Ideal) (merged m c) := by
  have h31 : t.val % 32 = 31 := (flush0_5 t).mp hf
  obtain ⟨-, -, -, -, -, -, -, -, -, -, e0, e1⟩ := idx_facts t
  show (cfg0.win 5).cut (grid0.coords t) ((dats m 0 c).after 5 t) = _
  rw [after0_5]
  refine funext fun (y : S2048x1024.Idx) => ?_
  show (outsAt0 m c t.val t.isLt).1 y = merged m c (((cfg0.win 5).blk t).view.emb y)
  refine last_value_at m c t h31 y _ ?_ ?_
  · show win0_5.index t (0 : Fin 2) * 2048 + 1 * (y 0).val = _; rw [e0]; omega
  · show win0_5.index t (1 : Fin 2) * 1024 + 1 * (y 1).val = _; rw [e1]; omega

/-- Every entry of the [8192, 4096] array lies in the block written back at (row / 2048, feature / 1024, 31). -/
theorem cover (i : S8192x4096.Idx) :
    ∃ t : Fin cfg0.N, (cfg0.win 5).flush t = true ∧ i ∈ ((cfg0.win 5).blk t).view.set := by
  have h0 : (i 0).val < 8192 := (i 0).isLt
  have h1 : (i 1).val < 4096 := (i 1).isLt
  have hN : cfg0.N = 512 := N_0
  obtain ⟨t, tv⟩ : ∃ t : Fin cfg0.N, t.val = 128 * ((i 0).val / 2048) + 32 * ((i 1).val / 1024) + 31 :=
    ⟨⟨128 * ((i 0).val / 2048) + 32 * ((i 1).val / 1024) + 31, by rw [hN]; omega⟩, rfl⟩
  obtain ⟨-, -, -, -, -, -, -, -, -, -, e0, e1⟩ := idx_facts t
  refine ⟨t, (flush0_5 t).mpr (by omega), ?_⟩
  show i ∈ ((View.whole main_v2).slice (win0_5.rect t)).set
  rw [View.set_slice_whole, Rect.mem_set_unit]
  intro a
  match a with
  | ⟨0, _⟩ =>
    show win0_5.index t (0 : Fin 2) * 2048 ≤ (i 0).val ∧ (i 0).val < win0_5.index t (0 : Fin 2) * 2048 + 2048
    rw [e0]; omega
  | ⟨1, _⟩ =>
    show win0_5.index t (1 : Fin 2) * 1024 ≤ (i 1).val ∧ (i 1).val < win0_5.index t (1 : Fin 2) * 1024 + 1024
    rw [e1]; omega

/-- After the region the [8192, 4096] array is the layer on the merged rows. -/
theorem final_merged (c : Dev nD) : (dats m 0 c).arrAt 5 cfg0.N = merged m c :=
  (dats m 0 c).arrAt_eq_of_cover 5 (merged m c) (flushed_eq m c) cover

/-! ## The arrays the region finds, from the arguments -/

/-- The region finds the input with its two leading axes merged. -/
theorem Xarr_eq (c : Dev nD) :
    Xarr m c = shapeCast S8192x4096 (m ((c : Thread nD τ).loc main_arg0)) shapeCasts_S4x2048x4096_S8192x4096 := by
  show StableHlo.after hostOps0 (fun b => m (c, b)) (Proc.devRef .tc main_v0) = _
  after_results
  rfl

/-- The region finds the bias as a one-row matrix. -/
theorem brow_eq (c : Dev nD) :
    brow m c = shapeCast S1x4096 (m ((c : Thread nD τ).loc main_arg2)) shapeCasts_S4096_S1x4096 := by
  show StableHlo.after hostOps0 (fun b => m (c, b)) (Proc.devRef .tc main_v1) = _
  after_results
  rfl

/-! ## The result -/

/-- The result array after the host's last line: the [8192, 4096] array with its leading axis split. -/
theorem tail_eq (c : Dev nD) :
    Pipeline.afterTail₀ cfgs (dats m) 0 (V0 m) [hostOps1] c main_v3
      = shapeCast S4x2048x4096 (merged m c) shapeCasts_S8192x4096_S4x2048x4096 := by
  unfold Pipeline.afterTail₀
  show StableHlo.after hostOps1 _ (Proc.devRef .tc main_v3) = _
  after_results
  have hw := (Pipeline.withArrays_arr spec0 launch0.win.arr_inj c (V0 m c)
    (fun w => (dats m 0 c).arrAt w cfg0.N) 5).trans (final_merged m c)
  show shapeCast S4x2048x4096 (Pipeline.withArrays spec0 c (V0 m c) (fun w => (dats m 0 c).arrAt w cfg0.N)
    (Proc.devRef .tc (Pipeline.arrRef spec0 5))) shapeCasts_S8192x4096_S4x2048x4096 = _
  rw [hw]

/-- Split again, the layer on the merged rows is the layer on the three-axis input. -/
theorem result_eq (c : Dev nD) :
    shapeCast S4x2048x4096 (merged m c) shapeCasts_S8192x4096_S4x2048x4096
      = layer shapeCasts_S4x2048x4096_S8192x4096 shapeCasts_S4096_S1x4096 shapeCasts_S8192x4096_S4x2048x4096
          (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold layer
  show shapeCast S4x2048x4096 (out2 (Xarr m c) (Warr m c) (brow m c) (Barr m c) (Aarr m c)) _ = _
  rw [Xarr_eq m c, brow_eq m c, show Warr m c = (m ((c.tc : Thread nD τ).loc main_arg1)) from V_main_arg1 m c,
    show Barr m c = (m ((c.tc : Thread nD τ).loc main_arg3)) from V_main_arg3 m c, show Aarr m c = (m ((c.tc : Thread nD τ).loc main_arg4)) from V_main_arg4 m c]

/-- Every weakly fair execution of the idealized kernel terminates with its result array at the layer of the
    argument arrays, and the arguments unchanged. -/
theorem run : θ_run defs (onTc (τ := τ) (main (F := Ideal))) ⟨m, fun _ => 0, ρ⟩ fun r => ∀ c : Dev nD,
      r.2.mem ((c.tc : Thread nD τ).loc main_v3)
        = layer shapeCasts_S4x2048x4096_S8192x4096 shapeCasts_S4096_S1x4096 shapeCasts_S8192x4096_S4x2048x4096
            (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4)) :=
  (θ_run defs _ _).mono (fun _ h c => ⟨
      ((h c).2 main_v3 (Pipeline.mem_restRefs_of main_v3 (by decide) (by decide))).trans ((tail_eq m c).trans (result_eq m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c)))⟩)
    (run_main m ρ)

end Cert.KernelIdeal.RunValue

end
-- ==== Proof.lean ====
/-
  A linear layer with a low-rank correction: the Pallas kernel against its jnp reference, over the extended reals.

  Both programs compute, for an input row r and an output feature n,

      ((sum over d of x (r, d) * w (n, d)) + bias n) + 2 * (sum over q of (sum over d of x (r, d) * b (d, q)) * a (q, n)),

  with the same word for 2 and the same association of the two outer additions. The reference contracts the 4096
  features in one sum. The kernel walks a grid (i, j, k) of 4 x 4 x 32 points, k fastest: it keeps two accumulators,
  zeroed at k = 0, adds at every point the k-th run of 128 features of x · wᵀ and of x · b, and at k = 31 forms the
  output block from the finished accumulators. The two agree because a finite sum may be taken in consecutive runs
  (commutativity and associativity of the addition only) and 0 + a = a: no finiteness of the inputs is used.

  The modules: LoraSpec (the layer as one function; sums taken 128 at a time), LoraRef (the reference is the layer),
  LoraPieces (what one point's body leaves), LoraPayloads (the body's arithmetic at an entry), LoraBlocks (the
  windows' blocks read through the arrays), LoraAccum (the accumulators after every point, by induction on the
  point), LoraRun (the kernel's result array is the layer). The frames of the two kernel programs are the generated
  ones; the reference's frame is its generated run with the result dropped; the ideal pass rewrote nothing.
-/
import proofs.«159220_j69329362092463_1_alg».proof.Defs
import proofs.«159220_j69329362092463_1_alg».proof.Proof.Gen.Kernel
import proofs.«159220_j69329362092463_1_alg».proof.Proof.Gen.Kernel.Frame
import proofs.«159220_j69329362092463_1_alg».proof.Proof.Gen.KernelIdeal
import proofs.«159220_j69329362092463_1_alg».proof.Proof.Gen.KernelIdeal.Frame
import proofs.«159220_j69329362092463_1_alg».proof.Proof.Gen.ReferenceIdeal
import proofs.«159220_j69329362092463_1_alg».proof.Proof.Gen.ReferenceIdeal.Run
import proofs.«159220_j69329362092463_1_alg».proof.Proof.Gen.ReferenceIdeal.Read
import proofs.«159220_j69329362092463_1_alg».proof.Proof.Gen.Pre_finite_inputs
import proofs.«159220_j69329362092463_1_alg».proof.Proof.LoraRef
import proofs.«159220_j69329362092463_1_alg».proof.Proof.LoraRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end with the layer of arguments that agree. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq,
    Cert.Lora.Ref.result_eq_layer Cert.KernelIdeal.Facts₀.shapeCasts_S4x2048x4096_S8192x4096 Cert.KernelIdeal.Facts₀.shapeCasts_S4096_S1x4096
      Cert.KernelIdeal.Facts₀.shapeCasts_S8192x4096_S4x2048x4096,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
